-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S2x16384x64 : Shape := ⟨3, ![2, 16384, 64]⟩
abbrev S512x4096 : Shape := ⟨2, ![512, 4096]⟩
abbrev S2x512x64 : Shape := ⟨3, ![2, 512, 64]⟩
abbrev S512x64 : Shape := ⟨2, ![512, 64]⟩
abbrev S1x512x64 : Shape := ⟨3, ![1, 512, 64]⟩
abbrev S32768x64 : Shape := ⟨2, ![32768, 64]⟩

abbrev nBuf : Space → Nat
  | .hbm => 4
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S2x16384x64, .f32⟩
  | .hbm, ⟨3, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S64x4096, .f32⟩
  | .local _ .vmem, ⟨5, _⟩ => ⟨S2x512x64, .f32⟩
  | .local _ .vmem, ⟨6, _⟩ => ⟨S2x512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  shapeCasts_S512x64_S1x512x64 : S512x64.ShapeCasts S1x512x64
  inb_S2x512x64_S1x512x64_1_0_0 : ∀ a, (![1, 0, 0] : Fin 3 → Nat) a + S1x512x64.size a ≤ S2x512x64.size a
  shapeCasts_S2x16384x64_S32768x64 : S2x16384x64.ShapeCasts S32768x64
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x64.size a ≤ S2x16384x64.size a
  hwx0_3 : ∀ i : grid0.Coords, EltTy.bits .f32 = 32 ∨ (Rect.block (s := S2x16384x64) S2x512x64.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768x64, .f32⟩
  | .hbm, ⟨6, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S_S32768x64 : S_.BroadcastsInDim S32768x64 (![] : Fin 0 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.BitsBody.lean ====
/-
  The kernel body of the gate kernel as a Hoare triple, at any float family.

  One grid point receives a 512-row block of the activations twice over — rows [512 i, 512 i + 512) and rows
  [512 (i + 32), 512 (i + 32) + 512) of the same array — together with the whole 64 x 4096 gate weight, and writes
  a 2 x 512 x 64 tile: plane 0 is the first block times the transposed weight, plane 1 the second block times
  the transposed weight. The two loads of the output tile that precede the stores are dead: their values are
  never used, so the tile after the body does not depend on what it held before.
-/
import proofs.«178907_g47579647705117_cont_8to1_c_384_14_alg».proof.Proof.Gen.Kernel.Launch
import proofs.«178907_g47579647705117_cont_8to1_c_384_14_alg».proof.Proof.Gen.Kernel.Skeleton
import proofs.«178907_g47579647705117_cont_8to1_c_384_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole weight block. -/
abbrev rW : Rect S64x4096 := Rect.unit (s := S64x4096) ![0, 0] S64x4096.size inb_S64x4096_S64x4096_0_0
/-- A whole activation block. -/
abbrev rX : Rect S512x4096 := Rect.unit (s := S512x4096) ![0, 0] S512x4096.size inb_S512x4096_S512x4096_0_0
/-- Plane 0 of the output tile. -/
abbrev rO0 : Rect S2x512x64 := Rect.unit (s := S2x512x64) ![0, 0, 0] S1x512x64.size inb_S2x512x64_S1x512x64_0_0_0
/-- Plane 1 of the output tile. -/
abbrev rO1 : Rect S2x512x64 := Rect.unit (s := S2x512x64) ![1, 0, 0] S1x512x64.size inb_S2x512x64_S1x512x64_1_0_0

/-! ## What the body leaves in the output tile -/

/-- The output tile after the body, from the two activation blocks `xa`, `xb` and the weight block `w`: plane 1
    is written last, plane 0 first (the pieces are listed last first). -/
def outTile (xa xb : Vec F S512x4096 .f32) (w : Vec F S64x4096 .f32) : Vec F S2x512x64 .f32 :=
  View.canon [⟨rO1, k0_pay2 (View.ld w rW) (View.ld xb rX)⟩, ⟨rO0, k0_pay1 (View.ld w rW) (View.ld xa rX)⟩]

/-- The two planes tile the output tile, so every element of it is written. -/
theorem outTile_cover (p1 p0 : Vec F S1x512x64 .f32) (y : S2x512x64.Idx) :
    ∃ pc ∈ ([⟨rO1, p1⟩, ⟨rO0, p0⟩] : List (View.Piece (Elt F) S2x512x64 .f32)), y ∈ pc.1.set :=
  View.cover_of_tiled [⟨rO1, p1⟩, ⟨rO0, p0⟩] S1x512x64.size (by rfl) y

/-! ## The body's triple -/

set_option maxHeartbeats 1000000 in
/-- The body on whole staging buffers — the two activation blocks at `xa`, `xb`, the weight at `w`, the output tile at
    anything — runs to the end with the inputs as they were and the output tile at `outTile xa xb w`. -/
theorem sound_kernel (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S64x4096 .f32) (harg3 : arg3.IsWhole)
    (arg4 : Memref sig .tc .vmem S2x512x64 .f32) (harg4 : arg4.IsWhole)
    (xa xb : Vec F S512x4096 .f32) (w : Vec F S64x4096 .f32) (K : PUnit → sProp 𝕄) :
    iprop(owns (c : Thread nD τ) arg1 fullShare xa ∗ owns (c : Thread nD τ) arg2 fullShare xb
        ∗ owns (c : Thread nD τ) arg3 fullShare w ∗ (∃ d, owns (c : Thread nD τ) arg4 fullShare d)
        ∗ (iprop(owns (c : Thread nD τ) arg1 fullShare xa ∗ owns (c : Thread nD τ) arg2 fullShare xb
            ∗ owns (c : Thread nD τ) arg3 fullShare w ∗ owns (c : Thread nD τ) arg4 fullShare (outTile xa xb w)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _ _)

end Cert.Kernel.Hand

end
-- ==== Proof.BitsData.lean ====
/-
  The proof data of the gate kernel's one pipeline, and the body obligation at every grid point.

  The array behind windows 0 and 1 is the same buffer, the activations: window 0 reads row block `i` of it and
  window 1 row block `i + 32`. Window 2 is the whole gate weight (fetched once and kept), window 3 the output, whose
  tile at point `i` is rows [512 i, 512 i + 512) of both planes. After the body each input's staging buffer still
  holds its block, and the output's holds `outTile` of the three input blocks.
-/
import proofs.«178907_g47579647705117_cont_8to1_c_384_14_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: the region is @main's first line, so they are the
    launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`. The two windows on the activations hold that array at the two halves of the full
    share; the weight and the output are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outTile (iblk m c 0 t) (iblk m c 1 t) (iblk m c 2 t) := by dsimp only [dats]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; rfl

/-! ## What the body finds in each input's staging buffer -/

/-- An input's current staging buffer holds its block at every point, whether the pipeline fetched it there or the
    block index has not moved since it did. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
/-
  The launch of the gate kernel's program: @main is one pipelined region followed by one reshape.

  Two of the pipeline's four windows read the same array, the activations, at different row blocks. Neither writes
  it, so the array's buffer is dealt to the two windows at the two halves of its full share when the region is
  entered, and each window's fetches read it at its half. The output array is held whole by its one window. After
  the region the reshape reads the output array and writes @main's result buffer; it touches nothing else, so it
  runs holding just those two buffers. At the end every array is read back at the share its window holds.
-/
import proofs.«178907_g47579647705117_cont_8to1_c_384_14_alg».proof.Proof.BitsData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_fresh : (hostOps1 : List (HloOp τ sig (Elt F))).Forall fun op => op.fresh = ∅ := by
  simp only [List.Forall]; repeat' constructor

/-- @main is the region followed by one reshape: it reduces to the region continued by that line, the buffers at
    their launch contents when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The region's entry -/

/-- At the region's entry the buffers behind the windows' arrays, each whole at the full share, are the
    pipeline's arrays: the activations' buffer is dealt to the two windows that read it, half the share each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = ({main_arg0, main_arg1, main_v0} : Finset (Ref sig .tc)) := by decide
  unfold Pipeline.arrBufs Dat.arrays
  rw [bigSep_W0, himg, bigSep_insert (by decide), bigSep_insert (by decide), bigSep_singleton]
  rw [(arr_whole0 0).set_eq_univ, (arr_whole0 2).set_eq_univ, (arr_whole0 3).set_eq_univ,
    share0, share1, share2, share3]
  dsimp only
  rw [show (dats m 0 c).arrAt 0 0 = V m c main_arg0 from A_eq m c 0, show (dats m 0 c).arrAt 1 0 = V m c main_arg0 from A_eq m c 1,
    show (dats m 0 c).arrAt 2 0 = V m c main_arg1 from A_eq m c 2, show (dats m 0 c).arrAt 3 0 = V m c main_v0 from A_eq m c 3]
  refine (show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) ⊢ _ from ?_)
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-! ## The line after the region -/

/-- The buffers the reshape after the region touches: the pipeline's output array and @main's result. -/
abbrev tailSet : Finset (DevRef τ sig) := {Proc.devRef .tc main_v0, Proc.devRef .tc main_v1}

/-- Core `c`'s buffer contents when the region is left: the output array as the write-backs left it, every other
    buffer as launched. -/
def exitVal (c : Dev nD) : Valuation τ sig (Elt F) :=
  Function.update (fun b => m (c, b)) (Proc.devRef .tc main_v0) ((dats m 0 c).arrAt 3 cfg0.N)

/-- What @main's result buffer holds after the reshape. -/
def resultVal (c : Dev nD) : Buf (Elt F) ((c.tc : Thread nD τ).loc main_v1) :=
  StableHlo.after hostOps1 (exitVal m c) (Proc.devRef .tc main_v1)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers held at the exit contents are the output array and @main's result as the region left them. -/
theorem held_exit (c : Dev nD) :
    (StableHlo.held (c.tc : Thread nD τ) tailSet (exitVal m c) : sProp 𝕄)
      = iprop((((c.tc : Thread nD τ).loc main_v0) ↦{fullShare} (dats m 0 c).arrAt 3 cfg0.N) ∗ (((c.tc : Thread nD τ).loc main_v1) ↦{fullShare} V m c main_v1)) := by
  unfold StableHlo.held
  rw [bigSep_insert (by decide), bigSep_singleton]
  unfold exitVal
  rw [Function.update_self, Function.update_of_ne (StableHlo.devRef_ne_of_ne (by decide))]
  rfl

/-- After the reshape the output array is as it was and @main's result holds `resultVal`. -/
theorem held_after (c : Dev nD) :
    (StableHlo.held (c.tc : Thread nD τ) tailSet (StableHlo.after ([hostOps1] : List (List (HloOp τ sig (Elt F)))).flatten (exitVal m c)) : sProp 𝕄)
      = iprop((((c.tc : Thread nD τ).loc main_v0) ↦{fullShare} (dats m 0 c).arrAt 3 cfg0.N) ∗ (((c.tc : Thread nD τ).loc main_v1) ↦{fullShare} resultVal m c)) := by
  unfold StableHlo.held
  rw [bigSep_insert (by decide), bigSep_singleton]
  have h0 : StableHlo.after ([hostOps1] : List (List (HloOp τ sig (Elt F)))).flatten (exitVal m c) (Proc.devRef .tc main_v0) = (dats m 0 c).arrAt 3 cfg0.N := by
    rw [StableHlo.after_of_forall_not_mem (b := Proc.devRef .tc main_v0) _ _ (List.forall_iff_forall_mem.mp (by
      simp only [hostOps1, List.flatten_cons, List.flatten_nil, List.append_nil, List.Forall, StableHlo.reshape_writes, Finset.mem_singleton]
      exact StableHlo.devRef_ne_of_ne (by decide)))]
    unfold exitVal
    rw [Function.update_self]
  rw [h0]
  rfl

/-- The reshape run from the region's exit. -/
theorem tail_core (c : Dev nD) (Q' : PUnit → sProp 𝕄) :
    iprop(((StableHlo.held (c.tc : Thread nD τ) tailSet (StableHlo.after ([hostOps1] : List (List (HloOp τ sig (Elt F)))).flatten (exitVal m c)) : sProp 𝕄) -∗ Q' ⟨⟩)
        ∗ boundary (c.tc : Thread nD τ) ∗ (StableHlo.held (c.tc : Thread nD τ) tailSet (exitVal m c) : sProp 𝕄))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  iintro ⟨Hk, Hb⟩
  iapply (Pipeline.wp_seqs_then (fun q => Cfg.toPCfg (Val := Elt F) (cfgs q)) defs₀ Variants.none c tailSet [] [hostOps1] (tail_sub) (tail_fresh) (exitVal m c)) $$ Hb
  iintro Hb
  rw [Pipeline.chain_nil, wp_pure]
  imodintro
  iapply Hk
  icases Hb with ⟨-, H⟩
  iexact H

/-- The line after the region: from the region's exit — the boundary, the arrays as the write-backs left them, @main's
    result buffer as launched — the reshape runs and hands back the arrays and the result buffer at `resultVal`. -/
theorem htail (c : Dev nD) (Q' : PUnit → sProp 𝕄) :
    iprop((iprop((dats m 0 c).arrays ((dats m 0 c).arrAt · cfg0.N) ∗ ((c.tc : Thread nD τ).loc main_v1) ↦{fullShare} resultVal m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  rw [unscopedRest0_eq]
  unfold Dat.arrays
  rw [bigSep_W0, (arr_whole0 0).set_eq_univ, (arr_whole0 2).set_eq_univ, (arr_whole0 3).set_eq_univ, share3]
  dsimp only
  iintro ⟨Hk, Hb, ⟨Ha0, Ha1, Ha2, Ha3⟩, Hv1⟩
  iapply (tail_core m c Q')
  isplitl [Hk Ha0 Ha1 Ha2]
  · rw [held_after]
    iintro ⟨H3, H1⟩
    iapply Hk
    isplitr [H1]
    · isplitl [Ha0]; · iexact Ha0
      isplitl [Ha1]; · iexact Ha1
      isplitl [Ha2]; · iexact Ha2
      iexact H3
    · iexact H1
  isplitl [Hb]; · iexact Hb
  rw [held_exit]
  isplitl [Ha3]; · iexact Ha3
  iexact Hv1

/-! ## The invariant between points -/

/-- The invariant between points: the core's scoped buffers that are no staging buffer (there are none). -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem inv_in (c : Dev nD) (A B : sProp 𝕄) :
    iprop(A ∗ B ∗ Pipeline.scopedRest (Ix := Unit) (Name := ℕ) (U := UR sig nD τ) (Lvl := ℕ) (Val := Elt F) spec0 c) ⊢ (dats m 0 c).Φ 0 := by
  rw [Phi_eq]
  iintro ⟨-, -, H⟩
  iexact H

theorem inv_out (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [Phi_eq]
  iintro H
  isplitr; · iempintro
  iexact H

/-! ## The run -/

/-- What the run ends in: every array of the pipeline as the write-backs left it (an input as launched), and @main's
    result buffer at `resultVal`. -/
def RunPost (r : PUnit × MemSt nD τ sig (Elt F)) : Prop :=
  ∀ c : Dev nD, (∀ w, r.2.mem (((cfgs 0).spec w).arr.view.loc (c.tc : Thread nD τ)) = (dats m 0 c).arrAt w cfg0.N)
    ∧ r.2.mem ((c.tc : Thread nD τ).loc main_v1) = resultVal m c

set_option backward.isDefEq.respectTransparency.types false in
/-- From any memory with zero counters every weakly fair execution of @main terminates, in a state of `RunPost`. -/
theorem run_main : θ_run defs (onTc (τ := τ) (main (F := F))) (s₀ m ρ) (RunPost m) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => iprop(((c.tc : Thread nD τ).loc main_v1) ↦{fullShare} resultVal m c))
    (hX := fun c => by
      rw [Pipeline.unscopedRestP_none]
      iintro H
      isplitr; · iempintro
      iexact H)
    (hin := fun c => inv_in m c _ _)
    (hout := fun c => inv_out m c)
    (htail := htail m)
    (QY := fun c s => s.mem ((c.tc : Thread nD τ).loc main_v1) = resultVal m c)
    (hY := fun c s' => by
      iintro ⟨-, H, HSI⟩
      icombine HSI H gives %h
      imodintro
      isplitr
      · ipureintro; exact Buf.eq_of_forall_mem_univ h
      · iexact HSI)
    (hQ := fun s h c => ⟨(h c).1, (h c).2.2⟩)

end Cert.Kernel.Hand

end
-- ==== Proof.BitsFrame.lean ====
/-
  The frame of the gate kernel's program: every weakly fair execution terminates, faults nowhere, and leaves the
  two argument arrays as launched. Both are arrays of input windows of the pipeline, which never writes an input's
  array: after the last grid point each still holds its entry contents, and the region is @main's first line, so
  those are the launch contents.
-/
import proofs.«178907_g47579647705117_cont_8to1_c_384_14_alg».proof.Proof.BitsLaunch

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- An argument array ends as launched: window 0 stages the activations and window 2 the gate weight. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (((dats m 0 c).arrAt_in 0 rfl _).trans (A_eq m c 0)),
      ((h c).1 2).trans (((dats m 0 c).arrAt_in 2 rfl _).trans (A_eq m c 2))⟩) (run_main m ρ)

end Cert.Kernel.Hand

end
-- ==== Proof.IdealBody.lean ====
/-
  The kernel body of the gate kernel as a Hoare triple, at any float family.

  One grid point receives a 512-row block of the activations twice over — rows [512 i, 512 i + 512) and rows
  [512 (i + 32), 512 (i + 32) + 512) of the same array — together with the whole 64 x 4096 gate weight, and writes
  a 2 x 512 x 64 tile: plane 0 is the first block times the transposed weight, plane 1 the second block times
  the transposed weight. The two loads of the output tile that precede the stores are dead: their values are
  never used, so the tile after the body does not depend on what it held before.
-/
import proofs.«178907_g47579647705117_cont_8to1_c_384_14_alg».proof.Proof.Gen.KernelIdeal.Launch
import proofs.«178907_g47579647705117_cont_8to1_c_384_14_alg».proof.Proof.Gen.KernelIdeal.Skeleton
import proofs.«178907_g47579647705117_cont_8to1_c_384_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole weight block. -/
abbrev rW : Rect S64x4096 := Rect.unit (s := S64x4096) ![0, 0] S64x4096.size inb_S64x4096_S64x4096_0_0
/-- A whole activation block. -/
abbrev rX : Rect S512x4096 := Rect.unit (s := S512x4096) ![0, 0] S512x4096.size inb_S512x4096_S512x4096_0_0
/-- Plane 0 of the output tile. -/
abbrev rO0 : Rect S2x512x64 := Rect.unit (s := S2x512x64) ![0, 0, 0] S1x512x64.size inb_S2x512x64_S1x512x64_0_0_0
/-- Plane 1 of the output tile. -/
abbrev rO1 : Rect S2x512x64 := Rect.unit (s := S2x512x64) ![1, 0, 0] S1x512x64.size inb_S2x512x64_S1x512x64_1_0_0

/-! ## What the body leaves in the output tile -/

/-- The output tile after the body, from the two activation blocks `xa`, `xb` and the weight block `w`: plane 1
    is written last, plane 0 first (the pieces are listed last first). -/
def outTile (xa xb : Vec F S512x4096 .f32) (w : Vec F S64x4096 .f32) : Vec F S2x512x64 .f32 :=
  View.canon [⟨rO1, k0_pay2 (View.ld w rW) (View.ld xb rX)⟩, ⟨rO0, k0_pay1 (View.ld w rW) (View.ld xa rX)⟩]

/-- The two planes tile the output tile, so every element of it is written. -/
theorem outTile_cover (p1 p0 : Vec F S1x512x64 .f32) (y : S2x512x64.Idx) :
    ∃ pc ∈ ([⟨rO1, p1⟩, ⟨rO0, p0⟩] : List (View.Piece (Elt F) S2x512x64 .f32)), y ∈ pc.1.set :=
  View.cover_of_tiled [⟨rO1, p1⟩, ⟨rO0, p0⟩] S1x512x64.size (by rfl) y

/-! ## The body's triple -/

set_option maxHeartbeats 1000000 in
/-- The body on whole staging buffers — the two activation blocks at `xa`, `xb`, the weight at `w`, the output tile at
    anything — runs to the end with the inputs as they were and the output tile at `outTile xa xb w`. -/
theorem sound_kernel (c : Dev nD) (E : Set ℕ) (i : grid0.Coords)
    (arg1 : Memref sig .tc .vmem S512x4096 .f32) (harg1 : arg1.IsWhole)
    (arg2 : Memref sig .tc .vmem S512x4096 .f32) (harg2 : arg2.IsWhole)
    (arg3 : Memref sig .tc .vmem S64x4096 .f32) (harg3 : arg3.IsWhole)
    (arg4 : Memref sig .tc .vmem S2x512x64 .f32) (harg4 : arg4.IsWhole)
    (xa xb : Vec F S512x4096 .f32) (w : Vec F S64x4096 .f32) (K : PUnit → sProp 𝕄) :
    iprop(owns (c : Thread nD τ) arg1 fullShare xa ∗ owns (c : Thread nD τ) arg2 fullShare xb
        ∗ owns (c : Thread nD τ) arg3 fullShare w ∗ (∃ d, owns (c : Thread nD τ) arg4 fullShare d)
        ∗ (iprop(owns (c : Thread nD τ) arg1 fullShare xa ∗ owns (c : Thread nD τ) arg2 fullShare xb
            ∗ owns (c : Thread nD τ) arg3 fullShare w ∗ owns (c : Thread nD τ) arg4 fullShare (outTile xa xb w)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _ _)

end Cert.KernelIdeal.Hand

end
-- ==== Proof.IdealData.lean ====
/-
  The proof data of the gate kernel's one pipeline, and the body obligation at every grid point.

  The array behind windows 0 and 1 is the same buffer, the activations: window 0 reads row block `i` of it and
  window 1 row block `i + 32`. Window 2 is the whole gate weight (fetched once and kept), window 3 the output, whose
  tile at point `i` is rows [512 i, 512 i + 512) of both planes. After the body each input's staging buffer still
  holds its block, and the output's holds `outTile` of the three input blocks.
-/
import proofs.«178907_g47579647705117_cont_8to1_c_384_14_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffer contents when the region is entered: the region is @main's first line, so they are the
    launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`. The two windows on the activations hold that array at the two halves of the full
    share; the weight and the output are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.scopedRest spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outTile (iblk m c 0 t) (iblk m c 1 t) (iblk m c 2 t) := by dsimp only [dats]

theorem share0 (c : Dev nD) : (dats m 0 c).share 0 = fullShare.left := by unfold Dat.share; dsimp only [dats]; rfl
theorem share1 (c : Dev nD) : (dats m 0 c).share 1 = fullShare.right := by unfold Dat.share; dsimp only [dats]; rfl
theorem share2 (c : Dev nD) : (dats m 0 c).share 2 = fullShare := by unfold Dat.share; dsimp only [dats]; rfl
theorem share3 (c : Dev nD) : (dats m 0 c).share 3 = fullShare := by unfold Dat.share; rfl

/-! ## What the body finds in each input's staging buffer -/

/-- An input's current staging buffer holds its block at every point, whether the pipeline fetched it there or the
    block index has not moved since it did. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
/-
  The launch of the gate kernel's program: @main is one pipelined region followed by one reshape.

  Two of the pipeline's four windows read the same array, the activations, at different row blocks. Neither writes
  it, so the array's buffer is dealt to the two windows at the two halves of its full share when the region is
  entered, and each window's fetches read it at its half. The output array is held whole by its one window. After
  the region the reshape reads the output array and writes @main's result buffer; it touches nothing else, so it
  runs holding just those two buffers. At the end every array is read back at the share its window holds.
-/
import proofs.«178907_g47579647705117_cont_8to1_c_384_14_alg».proof.Proof.IdealData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps1_fresh : (hostOps1 : List (HloOp τ sig (Elt F))).Forall fun op => op.fresh = ∅ := by
  simp only [List.Forall]; repeat' constructor

/-- @main is the region followed by one reshape: it reduces to the region continued by that line, the buffers at
    their launch contents when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The region's entry -/

/-- At the region's entry the buffers behind the windows' arrays, each whole at the full share, are the
    pipeline's arrays: the activations' buffer is dealt to the two windows that read it, half the share each. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = ({main_arg0, main_arg1, main_v0} : Finset (Ref sig .tc)) := by decide
  unfold Pipeline.arrBufs Dat.arrays
  rw [bigSep_W0, himg, bigSep_insert (by decide), bigSep_insert (by decide), bigSep_singleton]
  rw [(arr_whole0 0).set_eq_univ, (arr_whole0 2).set_eq_univ, (arr_whole0 3).set_eq_univ,
    share0, share1, share2, share3]
  dsimp only
  rw [show (dats m 0 c).arrAt 0 0 = V m c main_arg0 from A_eq m c 0, show (dats m 0 c).arrAt 1 0 = V m c main_arg0 from A_eq m c 1,
    show (dats m 0 c).arrAt 2 0 = V m c main_arg1 from A_eq m c 2, show (dats m 0 c).arrAt 3 0 = V m c main_v0 from A_eq m c 3]
  refine (show iprop((((c.tc : Thread nD τ).loc main_arg0) ↦{fullShare} V m c main_arg0) ∗ (((c.tc : Thread nD τ).loc main_arg1) ↦{fullShare} V m c main_arg1)
      ∗ (((c.tc : Thread nD τ).loc main_v0) ↦{fullShare} V m c main_v0)) ⊢ _ from ?_)
  iintro ⟨H0, H1, H3⟩
  ihave H0' := (pointsTo_share (PosShare.mem_left_op_right fullShare)).1 $$ H0
  icases H0' with ⟨Hl, Hr⟩
  isplitl [Hl]; · iexact Hl
  isplitl [Hr]; · iexact Hr
  isplitl [H1]; · iexact H1
  iexact H3

/-! ## The line after the region -/

/-- The buffers the reshape after the region touches: the pipeline's output array and @main's result. -/
abbrev tailSet : Finset (DevRef τ sig) := {Proc.devRef .tc main_v0, Proc.devRef .tc main_v1}

/-- Core `c`'s buffer contents when the region is left: the output array as the write-backs left it, every other
    buffer as launched. -/
def exitVal (c : Dev nD) : Valuation τ sig (Elt F) :=
  Function.update (fun b => m (c, b)) (Proc.devRef .tc main_v0) ((dats m 0 c).arrAt 3 cfg0.N)

/-- What @main's result buffer holds after the reshape. -/
def resultVal (c : Dev nD) : Buf (Elt F) ((c.tc : Thread nD τ).loc main_v1) :=
  StableHlo.after hostOps1 (exitVal m c) (Proc.devRef .tc main_v1)

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The two buffers held at the exit contents are the output array and @main's result as the region left them. -/
theorem held_exit (c : Dev nD) :
    (StableHlo.held (c.tc : Thread nD τ) tailSet (exitVal m c) : sProp 𝕄)
      = iprop((((c.tc : Thread nD τ).loc main_v0) ↦{fullShare} (dats m 0 c).arrAt 3 cfg0.N) ∗ (((c.tc : Thread nD τ).loc main_v1) ↦{fullShare} V m c main_v1)) := by
  unfold StableHlo.held
  rw [bigSep_insert (by decide), bigSep_singleton]
  unfold exitVal
  rw [Function.update_self, Function.update_of_ne (StableHlo.devRef_ne_of_ne (by decide))]
  rfl

/-- After the reshape the output array is as it was and @main's result holds `resultVal`. -/
theorem held_after (c : Dev nD) :
    (StableHlo.held (c.tc : Thread nD τ) tailSet (StableHlo.after ([hostOps1] : List (List (HloOp τ sig (Elt F)))).flatten (exitVal m c)) : sProp 𝕄)
      = iprop((((c.tc : Thread nD τ).loc main_v0) ↦{fullShare} (dats m 0 c).arrAt 3 cfg0.N) ∗ (((c.tc : Thread nD τ).loc main_v1) ↦{fullShare} resultVal m c)) := by
  unfold StableHlo.held
  rw [bigSep_insert (by decide), bigSep_singleton]
  have h0 : StableHlo.after ([hostOps1] : List (List (HloOp τ sig (Elt F)))).flatten (exitVal m c) (Proc.devRef .tc main_v0) = (dats m 0 c).arrAt 3 cfg0.N := by
    rw [StableHlo.after_of_forall_not_mem (b := Proc.devRef .tc main_v0) _ _ (List.forall_iff_forall_mem.mp (by
      simp only [hostOps1, List.flatten_cons, List.flatten_nil, List.append_nil, List.Forall, StableHlo.reshape_writes, Finset.mem_singleton]
      exact StableHlo.devRef_ne_of_ne (by decide)))]
    unfold exitVal
    rw [Function.update_self]
  rw [h0]
  rfl

/-- The reshape run from the region's exit. -/
theorem tail_core (c : Dev nD) (Q' : PUnit → sProp 𝕄) :
    iprop(((StableHlo.held (c.tc : Thread nD τ) tailSet (StableHlo.after ([hostOps1] : List (List (HloOp τ sig (Elt F)))).flatten (exitVal m c)) : sProp 𝕄) -∗ Q' ⟨⟩)
        ∗ boundary (c.tc : Thread nD τ) ∗ (StableHlo.held (c.tc : Thread nD τ) tailSet (exitVal m c) : sProp 𝕄))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  iintro ⟨Hk, Hb⟩
  iapply (Pipeline.wp_seqs_then (fun q => Cfg.toPCfg (Val := Elt F) (cfgs q)) defs₀ Variants.none c tailSet [] [hostOps1] (tail_sub) (tail_fresh) (exitVal m c)) $$ Hb
  iintro Hb
  rw [Pipeline.chain_nil, wp_pure]
  imodintro
  iapply Hk
  icases Hb with ⟨-, H⟩
  iexact H

/-- The line after the region: from the region's exit — the boundary, the arrays as the write-backs left them, @main's
    result buffer as launched — the reshape runs and hands back the arrays and the result buffer at `resultVal`. -/
theorem htail (c : Dev nD) (Q' : PUnit → sProp 𝕄) :
    iprop((iprop((dats m 0 c).arrays ((dats m 0 c).arrAt · cfg0.N) ∗ ((c.tc : Thread nD τ).loc main_v1) ↦{fullShare} resultVal m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  rw [unscopedRest0_eq]
  unfold Dat.arrays
  rw [bigSep_W0, (arr_whole0 0).set_eq_univ, (arr_whole0 2).set_eq_univ, (arr_whole0 3).set_eq_univ, share3]
  dsimp only
  iintro ⟨Hk, Hb, ⟨Ha0, Ha1, Ha2, Ha3⟩, Hv1⟩
  iapply (tail_core m c Q')
  isplitl [Hk Ha0 Ha1 Ha2]
  · rw [held_after]
    iintro ⟨H3, H1⟩
    iapply Hk
    isplitr [H1]
    · isplitl [Ha0]; · iexact Ha0
      isplitl [Ha1]; · iexact Ha1
      isplitl [Ha2]; · iexact Ha2
      iexact H3
    · iexact H1
  isplitl [Hb]; · iexact Hb
  rw [held_exit]
  isplitl [Ha3]; · iexact Ha3
  iexact Hv1

/-! ## The invariant between points -/

/-- The invariant between points: the core's scoped buffers that are no staging buffer (there are none). -/
theorem Phi_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

theorem inv_in (c : Dev nD) (A B : sProp 𝕄) :
    iprop(A ∗ B ∗ Pipeline.scopedRest (Ix := Unit) (Name := ℕ) (U := UR sig nD τ) (Lvl := ℕ) (Val := Elt F) spec0 c) ⊢ (dats m 0 c).Φ 0 := by
  rw [Phi_eq]
  iintro ⟨-, -, H⟩
  iexact H

theorem inv_out (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [Phi_eq]
  iintro H
  isplitr; · iempintro
  iexact H

/-! ## The run -/

/-- What the run ends in: every array of the pipeline as the write-backs left it (an input as launched), and @main's
    result buffer at `resultVal`. -/
def RunPost (r : PUnit × MemSt nD τ sig (Elt F)) : Prop :=
  ∀ c : Dev nD, (∀ w, r.2.mem (((cfgs 0).spec w).arr.view.loc (c.tc : Thread nD τ)) = (dats m 0 c).arrAt w cfg0.N)
    ∧ r.2.mem ((c.tc : Thread nD τ).loc main_v1) = resultVal m c

set_option backward.isDefEq.respectTransparency.types false in
/-- From any memory with zero counters every weakly fair execution of @main terminates, in a state of `RunPost`. -/
theorem run_main : θ_run defs (onTc (τ := τ) (main (F := F))) (s₀ m ρ) (RunPost m) := by
  classical
  exact Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => iprop(((c.tc : Thread nD τ).loc main_v1) ↦{fullShare} resultVal m c))
    (hX := fun c => by
      rw [Pipeline.unscopedRestP_none]
      iintro H
      isplitr; · iempintro
      iexact H)
    (hin := fun c => inv_in m c _ _)
    (hout := fun c => inv_out m c)
    (htail := htail m)
    (QY := fun c s => s.mem ((c.tc : Thread nD τ).loc main_v1) = resultVal m c)
    (hY := fun c s' => by
      iintro ⟨-, H, HSI⟩
      icombine HSI H gives %h
      imodintro
      isplitr
      · ipureintro; exact Buf.eq_of_forall_mem_univ h
      · iexact HSI)
    (hQ := fun s h c => ⟨(h c).1, (h c).2.2⟩)

end Cert.KernelIdeal.Hand

end
-- ==== Proof.IdealFrame.lean ====
/-
  The frame of the gate kernel's program: every weakly fair execution terminates, faults nowhere, and leaves the
  two argument arrays as launched. Both are arrays of input windows of the pipeline, which never writes an input's
  array: after the last grid point each still holds its entry contents, and the region is @main's first line, so
  those are the launch contents.
-/
import proofs.«178907_g47579647705117_cont_8to1_c_384_14_alg».proof.Proof.IdealLaunch

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- An argument array ends as launched: window 0 stages the activations and window 2 the gate weight. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).1 0).trans (((dats m 0 c).arrAt_in 0 rfl _).trans (A_eq m c 0)),
      ((h c).1 2).trans (((dats m 0 c).arrAt_in 2 rfl _).trans (A_eq m c 2))⟩) (run_main m ρ)

end Cert.KernelIdeal.Hand

end
-- ==== Proof.Spec.lean ====
/-
  The gate logits as one function of the two argument arrays, over the extended reals:
  `logits x w [r, e] = Σ_k x[r, k] · w[e, k]` for `r < 32768`, `e < 64`, `k < 4096` — the activations times the
  transposed gate weight. Both programs compute it: the kernel block by block on the matrix unit into a zero
  accumulator, the reference by one `dot_general` against the transposed weight followed by a division by the
  temperature 1.
-/
import Idealize.ShloMosaic.PureOps.Ideal
import Idealize.ShloMosaic.Lib.ValueIdx

noncomputable section

namespace Cert.Gate

open Idealize.ShloMosaic Idealize.ShloMosaic.ValueIdx

abbrev SX : Shape := ⟨2, ![32768, 4096]⟩
abbrev SW : Shape := ⟨2, ![64, 4096]⟩
abbrev SO : Shape := ⟨2, ![32768, 64]⟩

/-- One logit: row `r` of the activations against row `e` of the gate weight. -/
def logitAt (x : FVec Ideal SX .f32) (w : FVec Ideal SW .f32) (r : Fin 32768) (e : Fin 64) : Ideal .f32 :=
  ∑ k : Fin 4096, x (ix2 r k) * w (ix2 e k)

/-- All the logits, as an array over [32768, 64]. -/
def logits (x : FVec Ideal SX .f32) (w : FVec Ideal SW .f32) : FVec Ideal SO .f32 :=
  fun i => logitAt x w (i 0) (i 1)

theorem logits_apply (x : FVec Ideal SX .f32) (w : FVec Ideal SW .f32) (r : Fin 32768) (e : Fin 64) :
    logits x w (ix2 r e) = logitAt x w r e := rfl

end Cert.Gate

end
-- ==== Proof.IdealTile.lean ====
/-
  The output tile of one grid point, read at an index, at the ideal instance: plane 0 at [r, e] is the first
  activation block's row r against the weight's row e, plane 1 the second block's — each a sum over the 4096
  columns, the matrix unit's product into a zero accumulator being that sum.
-/
import proofs.«178907_g47579647705117_cont_8to1_c_384_14_alg».proof.Proof.IdealBody
import proofs.«178907_g47579647705117_cont_8to1_c_384_14_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The matrix unit's dimension record, axis by axis

The record contracts axis 1 of both operands; axis 0 of each is kept: the left's is the result's axis 0, the
right's the result's axis 1. -/

/-- The left operand's row is the result's row. -/
private theorem lhs_tile_0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
/-- The left operand's column is the contraction position. -/
private theorem lhs_tile_1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
/-- The right operand's row is the result's column. -/
private theorem rhs_tile_0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
/-- The right operand's column is the contraction position. -/
private theorem rhs_tile_1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- The matrix unit's product of a [512, 4096] block and the [64, 4096] weight into a zero accumulator, at [r, e]: the
    sum over the 4096 columns of the block's row r against the weight's row e. -/
private theorem matmul_zero_tile (x : FVec Ideal S512x4096 .f32) (w : FVec Ideal S64x4096 .f32) (r : Fin 512) (e : Fin 64) :
    matmul (F := Ideal) dot_S512x4096_S64x4096_S512x64_1_1_0_0_n_n none x w (constant (F := Ideal) S512x64 .f32 0x00000000#32) (ix2 r e)
      = ∑ k : Fin 4096, x (ix2 r k) * w (ix2 e k) := by
  refine (Ideal.matmul_constant_zero_apply dot_S512x4096_S64x4096_S512x64_1_1_0_0_n_n none x w (ix2 r e)).trans ?_
  rw [← Equiv.sum_comp (ValueIdx.contrEquiv1 dot_S512x4096_S64x4096_S512x64_1_1_0_0_n_n 4096 rfl rfl).symm]
  refine Finset.sum_congr rfl fun k _ => ?_
  have hk := ValueIdx.contrEquiv1_symm_val dot_S512x4096_S64x4096_S512x64_1_1_0_0_n_n 4096 rfl rfl k
  have el : dot_S512x4096_S64x4096_S512x64_1_1_0_0_n_n.lhsIdx (ix2 r e) ((ValueIdx.contrEquiv1 dot_S512x4096_S64x4096_S512x64_1_1_0_0_n_n 4096 rfl rfl).symm k) = ix2 r k := funext fun a => Fin.ext (by
    match a with
    | ⟨0, _⟩ => exact lhs_tile_0 _ _
    | ⟨1, _⟩ => exact (lhs_tile_1 _ _).trans hk)
  have er : dot_S512x4096_S64x4096_S512x64_1_1_0_0_n_n.rhsIdx (ix2 r e) ((ValueIdx.contrEquiv1 dot_S512x4096_S64x4096_S512x64_1_1_0_0_n_n 4096 rfl rfl).symm k) = ix2 e k := funext fun a => Fin.ext (by
    match a with
    | ⟨0, _⟩ => exact rhs_tile_0 _ _
    | ⟨1, _⟩ => exact (rhs_tile_1 _ _).trans hk)
  rw [el, er]

/-! ## The two payloads at an index -/

/-- The first plane's payload at [0, r, e]: the leading unit axis is only a relabelling of the product's [r, e]. -/
private theorem pay1_tile (w : Vec Ideal S64x4096 .f32) (x : Vec Ideal S512x4096 .f32) (r : Fin 512) (e : Fin 64) :
    k0_pay1 (F := Ideal) w x (ix3 (0 : Fin 1) r e) = ∑ k : Fin 4096, x (ix2 r k) * w (ix2 e k) := by
  unfold k0_pay1
  refine (shapeCast_ab_1ab_apply _ shapeCasts_S512x64_S1x512x64 0 r e).trans ?_
  exact matmul_zero_tile x w r e

/-- The second plane's payload at [0, r, e], likewise. -/
private theorem pay2_tile (w : Vec Ideal S64x4096 .f32) (x : Vec Ideal S512x4096 .f32) (r : Fin 512) (e : Fin 64) :
    k0_pay2 (F := Ideal) w x (ix3 (0 : Fin 1) r e) = ∑ k : Fin 4096, x (ix2 r k) * w (ix2 e k) := by
  unfold k0_pay2
  refine (shapeCast_ab_1ab_apply _ shapeCasts_S512x64_S1x512x64 0 r e).trans ?_
  exact matmul_zero_tile x w r e

/-! ## The loads and the two planes' places -/

/-- The zero offsets of a rank-2 whole-buffer access. -/
private theorem zero_off2 : (![0, 0] : Fin 2 → Nat) = fun _ => 0 := by
  funext a; match a with | ⟨0, _⟩ => rfl | ⟨1, _⟩ => rfl

/-- The load of the whole weight block reads it. -/
private theorem ld_rW (w : Vec Ideal S64x4096 .f32) : View.ld w rW = w :=
  View.ld_unit_zero (S := S64x4096) zero_off2 inb_S64x4096_S64x4096_0_0 w

/-- The load of a whole activation block reads it. -/
private theorem ld_rX (x : Vec Ideal S512x4096 .f32) : View.ld x rX = x :=
  View.ld_unit_zero (S := S512x4096) zero_off2 inb_S512x4096_S512x4096_0_0 x

/-- Plane 0's element [0, r, e] sits at [0, r, e] of the tile. -/
private theorem emb_rO0 (r : Fin 512) (e : Fin 64) : rO0.emb (ix3 (0 : Fin 1) r e) = ix3 (0 : Fin 2) r e :=
  funext fun a => Fin.ext (by
    match a with
    | ⟨0, _⟩ => rfl
    | ⟨1, _⟩ => show 0 + 1 * r.val = r.val; omega
    | ⟨2, _⟩ => show 0 + 1 * e.val = e.val; omega)

/-- Plane 1's element [0, r, e] sits at [1, r, e] of the tile. -/
private theorem emb_rO1 (r : Fin 512) (e : Fin 64) : rO1.emb (ix3 (0 : Fin 1) r e) = ix3 (1 : Fin 2) r e :=
  funext fun a => Fin.ext (by
    match a with
    | ⟨0, _⟩ => rfl
    | ⟨1, _⟩ => show 0 + 1 * r.val = r.val; omega
    | ⟨2, _⟩ => show 0 + 1 * e.val = e.val; omega)

/-- An element of plane 0 is not in plane 1's rectangle: its first coordinate is 0, plane 1's are 1. -/
private theorem plane0_not_mem_rO1 (r : Fin 512) (e : Fin 64) : ix3 (0 : Fin 2) r e ∉ rO1.set := by
  rw [Rect.mem_set_unit]
  intro h
  have h0 : (1 : ℕ) ≤ 0 := (h 0).1
  omega

/-- Below the two planes' stores, an element of plane 0 holds plane 0's payload: plane 1's store, made last, misses it. -/
private theorem canon_plane0 (p1 p0 : Vec Ideal S1x512x64 .f32) (r : Fin 512) (e : Fin 64) :
    View.canon ([⟨rO1, p1⟩, ⟨rO0, p0⟩] : List (View.Piece (Elt Ideal) S2x512x64 .f32)) (ix3 (0 : Fin 2) r e)
      = p0 (ix3 (0 : Fin 1) r e) := by
  refine (View.canon_cons_of_not_mem (⟨rO1, p1⟩ : View.Piece (Elt Ideal) S2x512x64 .f32) [⟨rO0, p0⟩]
    (plane0_not_mem_rO1 r e)).trans ?_
  refine (congrArg (View.canon [(⟨rO0, p0⟩ : View.Piece (Elt Ideal) S2x512x64 .f32)]) (emb_rO0 r e).symm).trans ?_
  exact View.canon_cons_emb rO0 p0 [] (ix3 (0 : Fin 1) r e)

/-- An element of plane 1 holds plane 1's payload, the last store made. -/
private theorem canon_plane1 (p1 p0 : Vec Ideal S1x512x64 .f32) (r : Fin 512) (e : Fin 64) :
    View.canon ([⟨rO1, p1⟩, ⟨rO0, p0⟩] : List (View.Piece (Elt Ideal) S2x512x64 .f32)) (ix3 (1 : Fin 2) r e)
      = p1 (ix3 (0 : Fin 1) r e) := by
  refine (congrArg (View.canon ([⟨rO1, p1⟩, ⟨rO0, p0⟩] : List (View.Piece (Elt Ideal) S2x512x64 .f32)))
    (emb_rO1 r e).symm).trans ?_
  exact View.canon_cons_emb rO1 p1 [⟨rO0, p0⟩] (ix3 (0 : Fin 1) r e)

/-! ## The tile at an index -/

/-- Plane 0 of the tile at row `r`, expert `e`. -/
theorem outTile_plane0 (xa xb : Vec Ideal S512x4096 .f32) (w : Vec Ideal S64x4096 .f32) (r : Fin 512) (e : Fin 64) :
    outTile (F := Ideal) xa xb w (ix3 (0 : Fin 2) r e) = ∑ k : Fin 4096, xa (ix2 r k) * w (ix2 e k) := by
  unfold outTile
  refine (canon_plane0 _ _ r e).trans ?_
  rw [ld_rW, ld_rX]
  exact pay1_tile w xa r e

/-- Plane 1 of the tile at row `r`, expert `e`. -/
theorem outTile_plane1 (xa xb : Vec Ideal S512x4096 .f32) (w : Vec Ideal S64x4096 .f32) (r : Fin 512) (e : Fin 64) :
    outTile (F := Ideal) xa xb w (ix3 (1 : Fin 2) r e) = ∑ k : Fin 4096, xb (ix2 r k) * w (ix2 e k) := by
  unfold outTile
  refine (canon_plane1 _ _ r e).trans ?_
  rw [ld_rW, ld_rX]
  exact pay2_tile w xb r e

end Cert.KernelIdeal.Hand

end
-- ==== Proof.IdealArray.lean ====
/-
  From the tiles to the pipeline's output array, at the ideal instance. Grid point t writes its tile to rows
  [512 t, 512 t + 512) of both planes of the [2, 16384, 64] array; the 32 points cover it. Plane h, row r of that
  array is row 16384 h + r of the logits, because window 0 reads row block t of the activations and window 1 row
  block t + 32. Read as [32768, 64] in row-major order the array is the logits.
-/
import proofs.«178907_g47579647705117_cont_8to1_c_384_14_alg».proof.Proof.IdealData
import proofs.«178907_g47579647705117_cont_8to1_c_384_14_alg».proof.Proof.IdealTile
import proofs.«178907_g47579647705117_cont_8to1_c_384_14_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-- Plane `h`, row `r`, expert `e` of the pipeline's output array: logit row `16384 h + r`. -/
def planesAt (x : FVec Ideal S32768x4096 .f32) (w : FVec Ideal S64x4096 .f32) (h : Fin 2) (r : Fin 16384) (e : Fin 64) : Ideal .f32 :=
  Cert.Gate.logitAt x w ⟨h.val * 16384 + r.val, by omega⟩ e

/-- The pipeline's output array as a function of the two arguments. -/
def planes (x : FVec Ideal S32768x4096 .f32) (w : FVec Ideal S64x4096 .f32) : FVec Ideal S2x16384x64 .f32 :=
  fun j => planesAt x w (j 0) (j 1) (j 2)

/-! ## The tile of a point, read against the arguments -/

/-- The array read at an index whose coordinates are known is `planesAt` at those coordinates. -/
private theorem planes_apply (x : FVec Ideal S32768x4096 .f32) (w : FVec Ideal S64x4096 .f32) (i : S2x16384x64.Idx)
    (h : Fin 2) (R : Fin 16384) (e : Fin 64) (h0 : (i 0).val = h.val) (h1 : (i 1).val = R.val) (h2 : (i 2).val = e.val) :
    planes x w i = planesAt x w h R e := by
  have e0 : (i 0 : Fin 2) = h := Fin.ext h0
  have e1 : (i 1 : Fin 16384) = R := Fin.ext h1
  have e2 : (i 2 : Fin 64) = e := Fin.ext h2
  show planesAt x w (i 0) (i 1) (i 2) = _
  rw [e0, e1, e2]

/-- The tile built from blocks that are rows `R` and `16384 + R` of the activations (at tile row `r`) and the
    weight itself, read at plane `h`, row `r`, expert `e`, is plane `h`, row `R` of the output array. -/
private theorem tile_apply (xa xb : Vec Ideal S512x4096 .f32) (wt : Vec Ideal S64x4096 .f32)
    (x : FVec Ideal S32768x4096 .f32) (w : FVec Ideal S64x4096 .f32)
    (h : Fin 2) (r : Fin 512) (e : Fin 64) (R : Fin 16384)
    (hxa : ∀ k : Fin 4096, xa (ix2 r k) = x (ix2 (⟨0 * 16384 + R.val, by omega⟩ : Fin 32768) k))
    (hxb : ∀ k : Fin 4096, xb (ix2 r k) = x (ix2 (⟨1 * 16384 + R.val, by omega⟩ : Fin 32768) k))
    (hw : ∀ k : Fin 4096, wt (ix2 e k) = w (ix2 e k)) :
    outTile (F := Ideal) xa xb wt (ix3 h r e) = planesAt x w h R e := by
  match h with
  | ⟨0, _⟩ =>
    refine (outTile_plane0 xa xb wt r e).trans ?_
    unfold planesAt Cert.Gate.logitAt
    exact Finset.sum_congr rfl fun k _ => by rw [hxa k, hw k]
  | ⟨1, _⟩ =>
    refine (outTile_plane1 xa xb wt r e).trans ?_
    unfold planesAt Cert.Gate.logitAt
    exact Finset.sum_congr rfl fun k _ => by rw [hxb k, hw k]

variable (m : (ℓ : Loc nD τ sig) → Buf (Elt Ideal) ℓ)

/-! ## Where each window's block sits -/

/-- The index maps, decided over the grid: at point `t` window 0 is at row block `t`, window 1 at row block
    `t + 32`, window 2 at the origin, window 3 at row block `t` of both planes. -/
private theorem idx_facts : ∀ t : Fin cfg0.N,
      win0_0.index t (0 : Fin 2) = t.val ∧ win0_0.index t (1 : Fin 2) = 0
    ∧ win0_1.index t (0 : Fin 2) = t.val + 32 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Window 0's block at point `t`, at row `r` and column `k`: row `512 t + r` of the activations. -/
private theorem iblk0_apply (c : Dev nD) (t : Fin cfg0.N) (r : Fin 512) (k : Fin 4096) (R : Fin 32768)
    (hR : R.val = 512 * t.val + r.val) :
    (iblk m c 0 t : Vec Ideal S512x4096 .f32) (ix2 r k) = (V m c main_arg0 : S32768x4096.Idx → Ideal .f32) (ix2 R k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * r.val = R.val; rw [e0, hR]; omega
  | ⟨1, _⟩ => show win0_0.index t (1 : Fin 2) * 4096 + 1 * k.val = k.val; rw [e1]; omega

/-- Window 1's block at point `t`, at row `r` and column `k`: row `512 (t + 32) + r` of the activations. -/
private theorem iblk1_apply (c : Dev nD) (t : Fin cfg0.N) (r : Fin 512) (k : Fin 4096) (R : Fin 32768)
    (hR : R.val = 512 * (t.val + 32) + r.val) :
    (iblk m c 1 t : Vec Ideal S512x4096 .f32) (ix2 r k) = (V m c main_arg0 : S32768x4096.Idx → Ideal .f32) (ix2 R k) := by
  obtain ⟨-, -, e0, e1, -⟩ := idx_facts t
  unfold iblk
  rw [View.read_apply]
  show V m c main_arg0 _ = V m c main_arg0 _
  congr 1
  funext a
  apply Fin.ext
  match a with
  | ⟨0, _⟩ => show win0_1.index t (0 : Fin 2) * 512 + 1 * r.val = R.val; rw [e0, hR]; omega
  | ⟨1, _⟩ => show win0_1.index t (1 : Fin 2) * 4096 + 1 * k.val = k.val; rw [e1]; omega

/-- Window 2's block at any point is the gate weight. -/
private theorem iblk2_apply (c : Dev nD) (t : Fin cfg0.N) (e : Fin 64) (k : Fin 4096) :
    (iblk m c 2 t : Vec Ideal S64x4096 .f32) (ix2 e k) = (V m c main_arg1 : S64x4096.Idx → Ideal .f32) (ix2 e k) := by
  obtain ⟨-, -, -, -, e0, e1, -⟩ := idx_facts t
  unfold iblk
  rw [View.read_apply]
  show V m c main_arg1 _ = V m c main_arg1 _
  congr 1
  funext a
  apply Fin.ext
  match a with
  | ⟨0, _⟩ => show win0_2.index t (0 : Fin 2) * 64 + 1 * e.val = e.val; rw [e0]; omega
  | ⟨1, _⟩ => show win0_2.index t (1 : Fin 2) * 4096 + 1 * k.val = k.val; rw [e1]; omega

/-! ## What a point writes back, the cover, and the array after the run -/

/-- What point `t` writes back is block `t` of `planes` of the argument arrays as the region finds them. -/
private theorem flushed_eq (c : Dev nD) (t : Fin cfg0.N) :
    (dats (F := Ideal) m 0 c).flushed 3 t
      = ((cfg0.win 3).blk t).view.read (Elt Ideal) (planes (V m c main_arg0) (V m c main_arg1)) := by
  show (cfg0.win 3).cut (grid0.coords t) ((dats (F := Ideal) m 0 c).after 3 t) = _
  rw [after3]
  obtain ⟨-, -, -, -, -, -, e0, e1, e2⟩ := idx_facts t
  have hN : cfg0.N = 32 := N_0
  have ht : t.val < 32 := hN ▸ t.isLt
  refine funext fun (j : S2x512x64.Idx) => ?_
  obtain ⟨h, r, e, rfl⟩ : ∃ (h : Fin 2) (r : Fin 512) (e : Fin 64), j = ix3 h r e := ⟨j 0, j 1, j 2, eq_ix3 j⟩
  show outTile (F := Ideal) (iblk m c 0 t) (iblk m c 1 t) (iblk m c 2 t) (ix3 h r e)
    = planes (V m c main_arg0) (V m c main_arg1) (((cfg0.win 3).blk t).view.emb (ix3 h r e))
  have hr : r.val < 512 := r.isLt
  refine (tile_apply (iblk m c 0 t) (iblk m c 1 t) (iblk m c 2 t) (V m c main_arg0) (V m c main_arg1) h r e
    ⟨512 * t.val + r.val, by omega⟩
    (fun k => iblk0_apply m c t r k _ (by show 0 * 16384 + (512 * t.val + r.val) = _; omega))
    (fun k => iblk1_apply m c t r k _ (by show 1 * 16384 + (512 * t.val + r.val) = _; omega))
    (fun k => iblk2_apply m c t e k)).trans ?_
  refine (planes_apply _ _ _ h ⟨512 * t.val + r.val, by omega⟩ e ?_ ?_ ?_).symm
  · show win0_3.index t (0 : Fin 3) * 2 + 1 * h.val = h.val; rw [e0]; omega
  · show win0_3.index t (1 : Fin 3) * 512 + 1 * r.val = 512 * t.val + r.val; rw [e1]; omega
  · show win0_3.index t (2 : Fin 3) * 64 + 1 * e.val = e.val; rw [e2]; omega

/-- An index of the array is in point `t`'s block iff each coordinate is in the block's range on its axis. -/
private theorem mem_blk (t : Fin cfg0.N) (i : S2x16384x64.Idx) :
    i ∈ ((cfg0.win 3).blk t).view.set
      ↔ ∀ a : Fin 3, win0_3.index t a * S2x512x64.size a ≤ (i a).val ∧ (i a).val < win0_3.index t a * S2x512x64.size a + S2x512x64.size a := by
  show i ∈ ((View.whole main_v0).slice (win0_3.rect t)).set ↔ _
  rw [View.set_slice_whole, Rect.mem_set_unit]
  exact Iff.rfl

/-- Every index of the array is in the block of the point its row falls under, and every point writes back. -/
private theorem cover (i : S2x16384x64.Idx) :
    ∃ t : Fin cfg0.N, (cfg0.win 3).flush t = true ∧ i ∈ ((cfg0.win 3).blk t).view.set := by
  have hN : cfg0.N = 32 := N_0
  have hi0 : (i 0).val < 2 := (i 0).isLt
  have hi1 : (i 1).val < 16384 := (i 1).isLt
  have hi2 : (i 2).val < 64 := (i 2).isLt
  have hq : (i 1).val / 512 < cfg0.N := by rw [hN]; omega
  refine ⟨⟨(i 1).val / 512, hq⟩, flush0_3 _, ?_⟩
  obtain ⟨-, -, -, -, -, -, e0, e1, e2⟩ := idx_facts ⟨(i 1).val / 512, hq⟩
  rw [mem_blk]
  intro a
  match a with
  | ⟨0, _⟩ =>
    show win0_3.index ⟨(i 1).val / 512, hq⟩ (0 : Fin 3) * 2 ≤ (i 0).val
      ∧ (i 0).val < win0_3.index ⟨(i 1).val / 512, hq⟩ (0 : Fin 3) * 2 + 2
    rw [e0]; omega
  | ⟨1, _⟩ =>
    show win0_3.index ⟨(i 1).val / 512, hq⟩ (1 : Fin 3) * 512 ≤ (i 1).val
      ∧ (i 1).val < win0_3.index ⟨(i 1).val / 512, hq⟩ (1 : Fin 3) * 512 + 512
    rw [e1]; show (i 1).val / 512 * 512 ≤ (i 1).val ∧ (i 1).val < (i 1).val / 512 * 512 + 512; omega
  | ⟨2, _⟩ =>
    show win0_3.index ⟨(i 1).val / 512, hq⟩ (2 : Fin 3) * 64 ≤ (i 2).val
      ∧ (i 2).val < win0_3.index ⟨(i 1).val / 512, hq⟩ (2 : Fin 3) * 64 + 64
    rw [e2]; omega

/-- After the last write-back the output array is `planes` of the argument arrays. -/
theorem final3 (c : Dev nD) :
    (dats (F := Ideal) m 0 c).arrAt 3 cfg0.N = planes (V m c main_arg0) (V m c main_arg1) :=
  (dats (F := Ideal) m 0 c).arrAt_eq_of_cover 3 (planes (V m c main_arg0) (V m c main_arg1))
    (fun t _ => flushed_eq m c t) cover

/-- Reshaped to [32768, 64] the planes are the logits. -/
theorem reshape_planes (x : FVec Ideal S32768x4096 .f32) (w : FVec Ideal S64x4096 .f32) :
    (shapeCast S32768x64 (planes x w) shapeCasts_S2x16384x64_S32768x64 : FVec Ideal S32768x64 .f32) = Cert.Gate.logits x w := by
  refine funext fun (i : S32768x64.Idx) => ?_
  obtain ⟨r, e, rfl⟩ : ∃ (r : Fin 32768) (e : Fin 64), i = ix2 r e := ⟨i 0, i 1, eq_ix2 i⟩
  have hr : r.val < 32768 := r.isLt
  refine (shapeCast_apply (planes x w) shapeCasts_S2x16384x64_S32768x64 (ix2 r e)
    (ix3 (⟨r.val / 16384, by omega⟩ : Fin 2) (⟨r.val % 16384, by omega⟩ : Fin 16384) e) ?_).trans ?_
  · rw [Shape.rowMajor_val_three, Shape.rowMajor_val_two]
    show (r.val / 16384 * 16384 + r.val % 16384) * 64 + e.val = r.val * 64 + e.val
    omega
  · show planesAt x w ⟨r.val / 16384, _⟩ ⟨r.val % 16384, _⟩ e = Cert.Gate.logitAt x w r e
    unfold planesAt
    congr 1
    apply Fin.ext
    show r.val / 16384 * 16384 + r.val % 16384 = r.val
    omega

end Cert.KernelIdeal.Hand

end
-- ==== Proof.IdealValue.lean ====
/-
  The value of the gate kernel's program at the ideal instance: @main's result is the logits of the two arguments.
  The pipeline leaves its [2, 16384, 64] output array at plane h, row r = logit row 16384 h + r, and the reshape
  after the region reads that array in row-major order as [32768, 64]: the logits.
-/
import proofs.«178907_g47579647705117_cont_8to1_c_384_14_alg».proof.Proof.IdealFrame
import proofs.«178907_g47579647705117_cont_8to1_c_384_14_alg».proof.Proof.IdealArray
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (m : (ℓ : Loc nD τ sig) → Buf (Elt Ideal) ℓ) (ρ : Dev nD → PrngReg)

/-- What the reshape writes: the pipeline's output array as the write-backs left it, read as [32768, 64]. -/
theorem resultVal_eq (c : Dev nD) :
    resultVal (F := Ideal) m c
      = (shapeCast S32768x64 ((dats (F := Ideal) m 0 c).arrAt 3 cfg0.N) shapeCasts_S2x16384x64_S32768x64 : FVec Ideal S32768x64 .f32) := by
  unfold resultVal
  show StableHlo.after hostOps1 (exitVal m c) (Proc.devRef .tc main_v1) = _
  after_results
  unfold exitVal
  rw [Function.update_self]
  rfl

/-- The run at the ideal instance: @main's result is the logits of the launch contents of the two arguments, which end
    as launched. -/
theorem run_value : θ_run defs (onTc (τ := τ) (main (F := Ideal))) ⟨m, fun _ => 0, ρ⟩ (fun r => ∀ c : Dev nD,
      r.2.mem ((c.tc : Thread nD τ).loc main_v1)
          = Cert.Gate.logits (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2).trans (by rw [resultVal_eq, final3, reshape_planes]),
      ((h c).1 0).trans (((dats m 0 c).arrAt_in 0 rfl _).trans (A_eq m c 0)),
      ((h c).1 2).trans (((dats m 0 c).arrAt_in 2 rfl _).trans (A_eq m c 2))⟩) (run_main m ρ)

end Cert.KernelIdeal.Hand

end
-- ==== Proof.RefLogits.lean ====
/-
  The reference's result is the logits: its `dot_general` against the transposed weight is the sum over the
  4096 columns of x[r, k] · w[e, k], and the division by the temperature 1 changes no extended real.
-/
import proofs.«178907_g47579647705117_cont_8to1_c_384_14_alg».proof.Proof.Gen.ReferenceIdeal.Read
import proofs.«178907_g47579647705117_cont_8to1_c_384_14_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx

/-- The temperature's pattern, 1.0 in single precision, denotes the real 1. -/
private theorem ofBits_one : Ideal.ofBits .f32 0x3F800000#32 = ((1 : ℝ) : EReal) := by
  simp [Ideal.ofBits, Ideal.ieee, -EReal.coe_mul]; norm_num

/-- Dividing by the temperature 1 changes no extended real, the infinities included. -/
private theorem div_temperature (z : EReal) : Ideal.div z (Ideal.ofBits .f32 0x3F800000#32) = z := by
  rw [ofBits_one, Ideal.div_coe one_ne_zero, one_div, inv_one, EReal.coe_one, mul_one]

/-- The left operand of the contraction is read at row `r`, column `k`. -/
private theorem lidx_eq (r : Fin 32768) (e : Fin 64) (k : Fin 4096) :
    Read.lidx_main_v1 (ix2 r e) k = ix2 r k :=
  funext fun a => Fin.ext (by match a with | ⟨0, _⟩ => rfl | ⟨1, _⟩ => rfl)

/-- The transposed weight at `[k, e]` is the weight at row `e`, column `k`. -/
private theorem ridx_eq (r : Fin 32768) (e : Fin 64) (k : Fin 4096) :
    Read.idx_main_v0 (Read.ridx_main_v1 (ix2 r e) k) = ix2 e k :=
  funext fun a => Fin.ext (by match a with | ⟨0, _⟩ => rfl | ⟨1, _⟩ => rfl)

/-- The reference's last stage, as a function of the two arguments, is the logits. -/
theorem ref_eq (x : FVec Ideal S32768x4096 .f32) (w : FVec Ideal S64x4096 .f32) :
    Cert.ReferenceIdeal.Read.val_main_v3 (F := Ideal) x w = Cert.Gate.logits x w := by
  funext i
  obtain ⟨r, e, rfl⟩ : ∃ (r : Fin 32768) (e : Fin 64), i = ix2 r e := ⟨i 0, i 1, eq_ix2 i⟩
  rw [Read.val_main_v3_apply, Read.val_main_v1_apply, Read.val_main_v2_apply, Read.val_main_cst_apply,
    Ideal.hostDivf_def, Ideal.ofBits_def, div_temperature, Cert.Gate.logits_apply]
  unfold Cert.Gate.logitAt
  refine Finset.sum_congr rfl fun k _ => ?_
  rw [Read.val_main_v0_apply, lidx_eq, ridx_eq]

end Cert.ReferenceIdeal.RefValue

end
-- ==== Proof.lean ====
/-
  The certificate of the gate kernel against its reference: logits = activations times the transposed gate weight
  (divided by the temperature 1 in the reference).

  The kernel is one pipelined region over 32 grid points followed by a reshape. At point i it multiplies row blocks
  i and i + 32 of the activations by the transposed weight and writes the two products to rows [512 i, 512 i + 512)
  of the two planes of a [2, 16384, 64] array, which the reshape reads as [32768, 64]. Two windows of the region read
  one array, so its buffer is shared between them at half shares. The frames of the word-level and of the idealized
  program are the same argument at two instances. At the ideal instance both programs end with the logits
  Σ_k x[r, k] · w[e, k]: the kernel's matrix product into a zero accumulator is that sum, the reference's
  `dot_general` against the transposed weight is that sum, and a quotient by 1 is the identity on the extended reals.
  No finiteness of the inputs is used.
-/
import proofs.«178907_g47579647705117_cont_8to1_c_384_14_alg».proof.Defs
import proofs.«178907_g47579647705117_cont_8to1_c_384_14_alg».proof.Proof.Gen.Kernel
import proofs.«178907_g47579647705117_cont_8to1_c_384_14_alg».proof.Proof.Gen.KernelIdeal
import proofs.«178907_g47579647705117_cont_8to1_c_384_14_alg».proof.Proof.Gen.ReferenceIdeal
import proofs.«178907_g47579647705117_cont_8to1_c_384_14_alg».proof.Proof.Gen.Pre_finite_inputs
import proofs.«178907_g47579647705117_cont_8to1_c_384_14_alg».proof.Proof.Gen.ReferenceIdeal.Run
import proofs.«178907_g47579647705117_cont_8to1_c_384_14_alg».proof.Proof.Gen.ReferenceIdeal.Read
import proofs.«178907_g47579647705117_cont_8to1_c_384_14_alg».proof.Proof.BitsFrame
import proofs.«178907_g47579647705117_cont_8to1_c_384_14_alg».proof.Proof.IdealFrame
import proofs.«178907_g47579647705117_cont_8to1_c_384_14_alg».proof.Proof.IdealValue
import proofs.«178907_g47579647705117_cont_8to1_c_384_14_alg».proof.Proof.RefLogits
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Hand.frame m ρ

/-- The idealized program runs and keeps its arguments. -/
theorem frame_kernelIdeal : Cert.frame_KernelIdeal := fun m ρ _ => Cert.KernelIdeal.Hand.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the logits of those arguments. -/
theorem algebraic : Cert.algebraic_KernelIdeal_ReferenceIdeal := by
  intro m ρ m' ρ' _ hagree
  refine ⟨fun c => Cert.Gate.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v3_eq (F := Ideal) _ _).trans (Cert.ReferenceIdeal.RefValue.ref_eq _ _)).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
